-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Layer.lean ====
/-
  The two-layer graph convolution both programs compute, as ONE function of the argument arrays with the dense
  product left as a parameter.

  With N = 100000 nodes, E = 1600000 edges and N self-loops appended, write s(e), t(e) for the source and target of edge e
  (a negative index counted from the end, as jnp reads it), deg(n) = #{e : t(e) = n}, d(n) = deg(n)^(-1/2) where deg(n) > 0
  and 0 elsewhere, and ν(e) = d(s(e)) · d(t(e)).  One layer sends node features H to

      conv(H)(n, j) = Σ_{e : t(e) = n} P(H, W)(s(e), j) · ν(e) + b(j),

  where P is the dense product.  The network is conv₂(relu(conv₁(x))).  Nothing here opens a gather, a scatter or a
  broadcast: the layer is carried whole, and the two programs are compared only in their dense products.
-/
import proofs.«104801_j84456236908760_1_alg».proof.Proof.Gen.KernelIdeal

noncomputable section

namespace Cert.KernelIdeal.Layer

open Cert.KernelIdeal Cert.KernelIdeal.Gen Idealize.ShloMosaic Idealize.ShloMosaic.TcCoe Idealize.SL.Sem

variable {F : FTy → Type} [FloatOps F]

/-- The edges' sources, the self-loops 0 … N-1 appended: row 0 of the edge list. -/
def src (ei : (⟨S2x1600000, .i32⟩ : BufTy).Contents (Elt F)) : (⟨S1700000, .i32⟩ : BufTy).Contents (Elt F) :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' targets, the self-loops appended: row 1 of the edge list. -/
def dst (ei : (⟨S2x1600000, .i32⟩ : BufTy).Contents (Elt F)) : (⟨S1700000, .i32⟩ : BufTy).Contents (Elt F) :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A node index as a gather reads it: a negative one counts from the end. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- The in-degree of every node, self-loops counted: one added at each edge's target. -/
def deg (ei : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dst (F := F) ei))
    (broadcastInDim S1700000 ![] bcast_S_S1700000 (constant S_ .f32 0x3F800000#32))

/-- deg^(-1/2) where the degree is positive, 0 elsewhere. -/
def dinv (ei : (⟨S2x1600000, .i32⟩ : BufTy).Contents (Elt F)) : (⟨S100000, .f32⟩ : BufTy).Contents (Elt F) :=
  select (cmpf (F := F) .ogt (deg ei) (broadcastInDim S100000 ![] bcast_S_S100000 (constant S_ .f32 0x00000000#32)))
    (Host.rsqrt (deg ei))
    (broadcastInDim S100000 ![] bcast_S_S100000 (id (constant S_ .f32 0x00000000#32)))

/-- The edge weight ν(e) = d(s(e)) · d(t(e)). -/
def nrm (ei : (⟨S2x1600000, .i32⟩ : BufTy).Contents (Elt F)) : (⟨S1700000, .f32⟩ : BufTy).Contents (Elt F) :=
  mulf (Host.gather gather_S100000_S1700000x1_S1700000_n_0_n_n_0_1_1 (dinv ei)
          (broadcastInDim S1700000x1 ![0] bcast_S1700000_S1700000x1_0 (wrap (F := F) (src (F := F) ei))))
       (Host.gather gather_S100000_S1700000x1_S1700000_n_0_n_n_0_1_1 (dinv ei)
          (broadcastInDim S1700000x1 ![0] bcast_S1700000_S1700000x1_0 (wrap (F := F) (dst (F := F) ei))))

/-- One layer after its dense product `h`: gather the rows at the sources, scale each by its edge's weight, add them up
    at the targets, add the bias. -/
def agg (h : (⟨S100000x128, .f32⟩ : BufTy).Contents (Elt F)) (s t : (⟨S1700000, .i32⟩ : BufTy).Contents (Elt F))
    (ν : (⟨S1700000, .f32⟩ : BufTy).Contents (Elt F)) (b : (⟨S128, .f32⟩ : BufTy).Contents (Elt F)) :
    (⟨S100000x128, .f32⟩ : BufTy).Contents (Elt F) :=
  addf (Host.scatterAdd scatter_S100000x128_S1700000x1_S1700000x128_1_0_0_1
          (broadcastInDim S100000x128 ![] bcast_S_S100000x128 (constant S_ .f32 0x00000000#32))
          (broadcastInDim S1700000x1 ![0] bcast_S1700000_S1700000x1_0 t)
          (mulf (Host.gather gather_S100000x128_S1700000x1_S1700000x128_1_0_n_n_0_1_1128 h
                   (broadcastInDim S1700000x1 ![0] bcast_S1700000_S1700000x1_0 (wrap (F := F) s)))
                (broadcastInDim S1700000x128 ![0, 1] bcast_S1700000x1_S1700000x128_0_1
                   (broadcastInDim S1700000x1 ![0] bcast_S1700000_S1700000x1_0 ν))))
       (broadcastInDim S100000x128 ![0, 1] bcast_S1x128_S100000x128_0_1 (broadcastInDim S1x128 ![1] bcast_S128_S1x128_1 b))

/-- max(·, 0), entry by entry. -/
def relu (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-- The network over a dense product `P`: conv₂(relu(conv₁(x))). -/
def net (P : (⟨S100000x128, .f32⟩ : BufTy).Contents (Elt F) → (⟨S128x128, .f32⟩ : BufTy).Contents (Elt F) → (⟨S100000x128, .f32⟩ : BufTy).Contents (Elt F))
    (x : (⟨S100000x128, .f32⟩ : BufTy).Contents (Elt F)) (ei : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S100000x128, .f32⟩ : BufTy).Contents (Elt F) :=
  agg (P (relu (agg (P x w1) (src ei) (dst ei) (nrm ei) b1)) w2) (src ei) (dst ei) (nrm ei) b2

end Cert.KernelIdeal.Layer

end
-- ==== Proof.Product.lean ====
/-
  The dense product over the extended reals:  (X · Y)(n, j) = Σ_{k < 128} X(n, k) · Y(k, j)  for X of 100000 rows.
  Both programs' dense products are this function: the kernel's 20 row blocks tile it, the reference's one
  contraction is it outright.
-/
import proofs.«104801_j84456236908760_1_alg».proof.Proof.Gen.KernelIdeal
import Idealize.ShloMosaic.PureOps.Ideal

noncomputable section

namespace Cert.KernelIdeal.Product

open Cert.KernelIdeal Cert.KernelIdeal.Gen Idealize.ShloMosaic Idealize.ShloMosaic.TcCoe Idealize.SL.Sem

/-- Entry (row of `i`, k) of the left operand. -/
abbrev rowAt (i : S100000x128.Idx) (k : Fin 128) : S100000x128.Idx := fun a => match a with
  | ⟨0, _⟩ => ⟨(i 0).val, (i 0).isLt⟩
  | ⟨1, _⟩ => ⟨k.val, k.isLt⟩
/-- Entry (k, column of `i`) of the right operand. -/
abbrev colAt (i : S100000x128.Idx) (k : Fin 128) : S128x128.Idx := fun a => match a with
  | ⟨0, _⟩ => ⟨k.val, k.isLt⟩
  | ⟨1, _⟩ => ⟨(i 1).val, (i 1).isLt⟩

/-- X · Y, entry by entry. -/
def prod (X : (⟨S100000x128, .f32⟩ : BufTy).Contents (Elt Ideal)) (Y : (⟨S128x128, .f32⟩ : BufTy).Contents (Elt Ideal)) :
    (⟨S100000x128, .f32⟩ : BufTy).Contents (Elt Ideal) :=
  fun i => ∑ k : Fin 128, X (rowAt i k) * Y (colAt i k)

end Cert.KernelIdeal.Product

end
-- ==== Proof.BlockProduct.lean ====
/-
  What one grid point's body computes, read at an entry.

  A point holds a block X of 5000 rows of the left operand and the whole 128 × 128 right operand Y, narrows both to
  bf16 (no change of value over the extended reals), and multiplies them into a zero accumulator.  So entry (r, j) of the
  block it stores is  Σ_{k < 128} X(r, k) · Y(k, j): the accumulator's 0 is the neutral element of +, and the
  contraction index of the product, a one-axis index of extent 128, is re-indexed by k.
-/
import proofs.«104801_j84456236908760_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.TcCoe Idealize.SL.Sem

/-- On the left operand the product's index keeps the output's row … -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and runs along the contracted axis. -/
theorem lhs_contr (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- On the right operand it runs along the contracted axis … -/
theorem rhs_contr (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- … and keeps the output's column. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of `j`, k) of a block. -/
abbrev atRow (j : S5000x128.Idx) (k : Fin 128) : S5000x128.Idx := fun a => match a with
  | ⟨0, _⟩ => ⟨(j 0).val, (j 0).isLt⟩
  | ⟨1, _⟩ => ⟨k.val, k.isLt⟩
/-- Entry (k, column of `j`) of the right operand. -/
abbrev atCol (j : S5000x128.Idx) (k : Fin 128) : S128x128.Idx := fun a => match a with
  | ⟨0, _⟩ => ⟨k.val, k.isLt⟩
  | ⟨1, _⟩ => ⟨(j 1).val, (j 1).isLt⟩

/-- A product into the zero accumulator, read at an entry: the sum over k of row times column. -/
theorem product_apply (X : FVec Ideal S5000x128 .bf16) (Y : FVec Ideal S128x128 .bf16) (j : S5000x128.Idx) :
    matmul dot_S5000x128_S128x128_S5000x128_1_0_0_1_n_n none X Y (constant S5000x128 .f32 0x00000000#32) j = ∑ k : Fin 128, X (atRow j k) * Y (atCol j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = atRow j k := funext fun a => Fin.ext (by
    match a with
    | ⟨0, _⟩ => exact lhs_row _ _
    | ⟨1, _⟩ => exact (lhs_contr _ _).trans hk)
  have er : dot_S5000x128_S128x128_S5000x128_1_0_0_1_n_n.rhsIdx j ((ValueIdx.contrEquiv1 dot_S5000x128_S128x128_S5000x128_1_0_0_1_n_n 128 rfl rfl).symm k) = atCol j k := funext fun a => Fin.ext (by
    match a with
    | ⟨0, _⟩ => exact (rhs_contr _ _).trans hk
    | ⟨1, _⟩ => exact rhs_col _ _)
  rw [el, er]

/-- The first layer's body: narrowing to bf16 changes no value, so the stored block is the product of the loaded ones. -/
theorem pay0_apply (X : Vec Ideal S5000x128 .f32) (Y : Vec Ideal S128x128 .f32) (j : S5000x128.Idx) :
    k0_pay1 (F := Ideal) X Y j = ∑ k : Fin 128, X (atRow j k) * Y (atCol j k) := by
  unfold k0_pay1
  exact product_apply _ _ j

/-- The second layer's body: the same, after a reshape of the block to its own shape. -/
theorem pay1_apply (X : Vec Ideal S5000x128 .f32) (Y : Vec Ideal S128x128 .f32) (j : S5000x128.Idx) :
    k1_pay1 (F := Ideal) X Y j = ∑ k : Fin 128, X (atRow j k) * Y (atCol j k) := by
  unfold k1_pay1
  rw [shapeCast_self]
  exact product_apply _ _ j

end Cert.KernelIdeal.BlockProduct

end
-- ==== Proof.DenseFirst.lean ====
/-
  The first layer's pallas_call computes the dense product of the arrays it is entered with.

  Its grid has 20 points; point t reads rows 5000·t … 5000·t + 4999 of the left operand (block index (t, 0)) and the
  whole right operand (block index (0, 0)), and writes back rows 5000·t … 5000·t + 4999 of the result (block index
  (t, 0)).  Entry (r, j) of the block point t stores is Σ_k X(5000·t + r, k) · Y(k, j), which is entry
  (5000·t + r, j) of X · Y: each write-back is a block of the one function X · Y.  Every row n lies in block
  n / 5000, so the blocks cover the result array, and it ends holding X · Y.
-/
import proofs.«104801_j84456236908760_1_alg».proof.Proof.Gen.KernelIdeal.Frame
import proofs.«104801_j84456236908760_1_alg».proof.Proof.BlockProduct
import proofs.«104801_j84456236908760_1_alg».proof.Proof.Product
import Idealize.ShloMosaic.Lib.Pipeline.Value

set_option maxRecDepth 16384

noncomputable section

namespace Cert.KernelIdeal.DenseFirst

open Cert.KernelIdeal Cert.KernelIdeal.Gen Cert.KernelIdeal.BlockProduct Cert.KernelIdeal.Product
open Idealize.ShloMosaic Idealize.ShloMosaic.TcCoe Idealize.SL.Sem
open Idealize.ShloMosaic.Pipeline (Dat)

theorem zeros : (![0, 0] : Fin 2 → Nat) = fun _ => 0 := funext fun a => by fin_cases a <;> rfl

/-- The block indices, decided over the grid: point t takes row block t of the left operand and of the result, and the
    one block of the right operand. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable {F : FTy → Type} [FloatOps F]
variable (V : (c : Dev nD) → (b : Ref sig .tc) → Buf (Elt F) ((c : Thread nD τ).loc b))

/-- Point t's block of the left operand is its rows 5000·t … 5000·t + 4999. -/
theorem left_block (c : Dev nD) (t : Fin cfg0.N) (y : S5000x128.Idx) (i : S100000x128.Idx)
    (h0 : (i 0).val = t.val * 5000 + (y 0).val) (h1 : (i 1).val = (y 1).val) :
    (iblk0 V c 0 t : Vec F S5000x128 .f32) y = (V c main_arg0 : S100000x128.Idx → Elt F .f32) i := by
  obtain ⟨e0, e1, -, -, -, -⟩ := block_index t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Every point's block of the right operand is the whole of it. -/
theorem right_block (c : Dev nD) (t : Fin cfg0.N) (y : S128x128.Idx) (i : S128x128.Idx)
    (h0 : (i 0).val = (y 0).val) (h1 : (i 1).val = (y 1).val) :
    (iblk0 V c 1 t : Vec F S128x128 .f32) y = (V c main_arg2 : S128x128.Idx → Elt F .f32) i := by
  obtain ⟨-, -, e2, e3, -, -⟩ := block_index t
  unfold iblk0
  rw [View.read_apply]
  show V c main_arg2 _ = V c main_arg2 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

end

variable (V : (c : Dev nD) → (b : Ref sig .tc) → Buf (Elt Ideal) ((c : Thread nD τ).loc b))

/-- What point t writes back is block t of X · Y, for X, Y the arrays the region is entered with. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  obtain ⟨-, -, -, -, e4, e5⟩ := block_index t
  funext j
  show k0_pay1 (F := Ideal) (iblk0 V c 0 t) (iblk0 V c 1 t) j = prod (V c main_arg0) (V c main_arg2) (((cfg0.win 2).blk t).view.emb j)
  refine (pay0_apply (iblk0 V c 0 t) (iblk0 V c 1 t) j).trans ?_
  unfold prod
  refine Finset.sum_congr rfl fun k _ => ?_
  have hr : (((cfg0.win 2).blk t).view.emb j 0).val = t.val * 5000 + (j 0).val := by
    show win0_2.index t (0 : Fin 2) * 5000 + 1 * (j 0).val = _; rw [e4]; omega
  have hc : (((cfg0.win 2).blk t).view.emb j 1).val = (j 1).val := by
    show win0_2.index t (1 : Fin 2) * 128 + 1 * (j 1).val = _; rw [e5]; omega
  rw [left_block V c t (atRow j k) (rowAt (((cfg0.win 2).blk t).view.emb j) k) hr rfl,
      right_block V c t (atCol j k) (colAt (((cfg0.win 2).blk t).view.emb j) k) rfl hc]

/-- An index of the result array is in point t's block iff its row is among the block's 5000 rows. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row n lies in block n / 5000: the write-backs cover the result array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_2 _, ?_⟩
  obtain ⟨-, -, -, -, e4, e5⟩ := block_index ⟨(i 0).val / 5000, ht⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The result array after the region: X · Y of the arrays it was entered with. -/
theorem result (c : Dev nD) : (dat0 V c).arrAt 2 cfg0.N = prod (V c main_arg0) (V c main_arg2) :=
  (dat0 V c).arrAt_eq_of_cover 2 (prod (V c main_arg0) (V c main_arg2)) (fun t _ => flushed_eq V c t) covered

end Cert.KernelIdeal.DenseFirst

end
-- ==== Proof.KernelValue.lean ====
/-
  The kernel program's result array, read back through its run.

  The run is a fold over @main's segments: host stretches and the two pallas_calls.  Reading the fold at one buffer:
  a host stretch that does not write the buffer leaves it; a pallas_call leaves every buffer but its result; the result
  of a pallas_call is X · Y of the arrays it was entered with (DenseFirst, DenseSecond).  So

    before the first call   s, t, ν are Layer.src, dst, nrm of the edge list, the arguments are as launched;
    after it                h₁ = x · W₁;
    before the second       a = relu(agg(h₁, s, t, ν, b₁)), and s, t, ν, W₂, b₂ are carried unchanged;
    after it                h₂ = a · W₂;
    at the end              the result is agg(h₂, s, t, ν, b₂) — the network over X · Y.
-/
import proofs.«104801_j84456236908760_1_alg».proof.Proof.Gen.KernelIdeal.Frame
import proofs.«104801_j84456236908760_1_alg».proof.Proof.Layer
import proofs.«104801_j84456236908760_1_alg».proof.Proof.Product
import proofs.«104801_j84456236908760_1_alg».proof.Proof.DenseFirst
import proofs.«104801_j84456236908760_1_alg».proof.Proof.DenseSecond
import Idealize.ShloMosaic.Lib.StableHlo.Run

set_option maxRecDepth 16384

noncomputable section

namespace Cert.KernelIdeal.Folded

open Cert.KernelIdeal Cert.KernelIdeal.Gen Cert.KernelIdeal.Layer Cert.KernelIdeal.Product
open Idealize.ShloMosaic Idealize.ShloMosaic.TcCoe Idealize.SL.Sem Idealize.ShloMosaic.StableHlo

section AnyFamily
variable {F : FTy → Type} [FloatOps F]
variable (m : (ℓ : Loc nD τ sig) → Buf (Elt F) ℓ) (ρ : Dev nD → PrngReg)

/-! ## Entering the first pallas_call -/

theorem src_entry (c : Dev nD) : W3 m ρ c (Proc.devRef .tc main_v3) = src (m ((c : Thread nD τ).loc main_arg1)) := by
  show StableHlo.after hostOps0_2 (StableHlo.after hostOps0_1 (StableHlo.after hostOps0 (W0 m ρ c))) (Proc.devRef .tc main_v3) = _
  simp only [hostOps0_2, hostOps0_1, hostOps0]
  after_results_simp <;> rfl

theorem dst_entry (c : Dev nD) : W3 m ρ c (Proc.devRef .tc main_v6) = dst (m ((c : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results_simp <;> rfl

theorem nrm_entry (c : Dev nD) : W3 m ρ c (Proc.devRef .tc main_v29) = nrm (m ((c : Thread nD τ).loc main_arg1)) := by
  show StableHlo.after hostOps0_2 (StableHlo.after hostOps0_1 (StableHlo.after hostOps0 (W0 m ρ c))) (Proc.devRef .tc main_v29) = _
  simp only [hostOps0_2, hostOps0_1, hostOps0]
  after_results_simp <;> rfl

theorem x_entry (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results_simp <;> rfl

theorem w1_entry (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0_2, hostOps0_1, hostOps0]
  after_results_simp <;> rfl

theorem b1_entry (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results_simp <;> rfl

theorem w2_entry (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0_2, hostOps0_1, hostOps0]
  after_results_simp <;> rfl

theorem b2_entry (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0_2, hostOps0_1, hostOps0]
  after_results_simp <;> rfl

/-! ## Leaving the first pallas_call: its result array, and what it does not touch -/

theorem first_out (c : Dev nD) : W4 m ρ c (Proc.devRef .tc main_v30) = (dat0 (V3 m ρ) c).arrAt 2 cfg0.N := W4_arr m ρ c 2

theorem src_4 (c : Dev nD) : W4 m ρ c (Proc.devRef .tc main_v3) = src (m ((c : Thread nD τ).loc main_arg1)) :=
  (W4_of_ne m ρ c main_v3 (by decide)).trans (src_entry m ρ c)
theorem dst_4 (c : Dev nD) : W4 m ρ c (Proc.devRef .tc main_v6) = dst (m ((c : Thread nD τ).loc main_arg1)) :=
  (W4_of_ne m ρ c main_v6 (by decide)).trans (dst_entry m ρ c)
theorem nrm_4 (c : Dev nD) : W4 m ρ c (Proc.devRef .tc main_v29) = nrm (m ((c : Thread nD τ).loc main_arg1)) :=
  (W4_of_ne m ρ c main_v29 (by decide)).trans (nrm_entry m ρ c)
theorem b1_4 (c : Dev nD) : W4 m ρ c (Proc.devRef .tc main_arg3) = m ((c : Thread nD τ).loc main_arg3) :=
  (W4_of_ne m ρ c main_arg3 (by decide)).trans (b1_entry m ρ c)
theorem w2_4 (c : Dev nD) : W4 m ρ c (Proc.devRef .tc main_arg4) = m ((c : Thread nD τ).loc main_arg4) :=
  (W4_of_ne m ρ c main_arg4 (by decide)).trans (w2_entry m ρ c)
theorem b2_4 (c : Dev nD) : W4 m ρ c (Proc.devRef .tc main_arg5) = m ((c : Thread nD τ).loc main_arg5) :=
  (W4_of_ne m ρ c main_arg5 (by decide)).trans (b2_entry m ρ c)

/-! ## Entering the second pallas_call -/

/-- The hidden activations: relu of the first layer's aggregate, over whatever the first call left. -/
theorem hidden_6 (c : Dev nD) : W6 m ρ c (Proc.devRef .tc main_v47)
    = relu (agg (W4 m ρ c (Proc.devRef .tc main_v30)) (W4 m ρ c (Proc.devRef .tc main_v3)) (W4 m ρ c (Proc.devRef .tc main_v6)) (W4 m ρ c (Proc.devRef .tc main_v29)) (W4 m ρ c (Proc.devRef .tc main_arg3))) := by
  show StableHlo.after hostOps1_1 (StableHlo.after hostOps1 (W4 m ρ c)) (Proc.devRef .tc main_v47) = _
  simp only [hostOps1_1, hostOps1]
  after_results_simp <;> rfl

theorem src_6 (c : Dev nD) : W6 m ρ c (Proc.devRef .tc main_v3) = W4 m ρ c (Proc.devRef .tc main_v3) := by
  show StableHlo.after hostOps1_1 (StableHlo.after hostOps1 (W4 m ρ c)) (Proc.devRef .tc main_v3) = _
  simp only [hostOps1_1, hostOps1]
  after_results_simp <;> rfl
theorem dst_6 (c : Dev nD) : W6 m ρ c (Proc.devRef .tc main_v6) = W4 m ρ c (Proc.devRef .tc main_v6) := by
  show StableHlo.after hostOps1_1 (StableHlo.after hostOps1 (W4 m ρ c)) (Proc.devRef .tc main_v6) = _
  simp only [hostOps1_1, hostOps1]
  after_results_simp <;> rfl
theorem nrm_6 (c : Dev nD) : W6 m ρ c (Proc.devRef .tc main_v29) = W4 m ρ c (Proc.devRef .tc main_v29) := by
  show StableHlo.after hostOps1_1 (StableHlo.after hostOps1 (W4 m ρ c)) (Proc.devRef .tc main_v29) = _
  simp only [hostOps1_1, hostOps1]
  after_results_simp <;> rfl
theorem w2_6 (c : Dev nD) : W6 m ρ c (Proc.devRef .tc main_arg4) = W4 m ρ c (Proc.devRef .tc main_arg4) := by
  show StableHlo.after hostOps1_1 (StableHlo.after hostOps1 (W4 m ρ c)) (Proc.devRef .tc main_arg4) = _
  simp only [hostOps1_1, hostOps1]
  after_results_simp <;> rfl
theorem b2_6 (c : Dev nD) : W6 m ρ c (Proc.devRef .tc main_arg5) = W4 m ρ c (Proc.devRef .tc main_arg5) := by
  show StableHlo.after hostOps1_1 (StableHlo.after hostOps1 (W4 m ρ c)) (Proc.devRef .tc main_arg5) = _
  simp only [hostOps1_1, hostOps1]
  after_results_simp <;> rfl

/-! ## Leaving the second pallas_call -/

theorem second_out (c : Dev nD) : W7 m ρ c (Proc.devRef .tc main_v48) = (dat1 (V6 m ρ) c).arrAt 2 cfg1.N := W7_arr m ρ c 2

theorem src_7 (c : Dev nD) : W7 m ρ c (Proc.devRef .tc main_v3) = src (m ((c : Thread nD τ).loc main_arg1)) :=
  (W7_of_ne m ρ c main_v3 (by decide)).trans ((src_6 m ρ c).trans (src_4 m ρ c))
theorem dst_7 (c : Dev nD) : W7 m ρ c (Proc.devRef .tc main_v6) = dst (m ((c : Thread nD τ).loc main_arg1)) :=
  (W7_of_ne m ρ c main_v6 (by decide)).trans ((dst_6 m ρ c).trans (dst_4 m ρ c))
theorem nrm_7 (c : Dev nD) : W7 m ρ c (Proc.devRef .tc main_v29) = nrm (m ((c : Thread nD τ).loc main_arg1)) :=
  (W7_of_ne m ρ c main_v29 (by decide)).trans ((nrm_6 m ρ c).trans (nrm_4 m ρ c))
theorem b2_7 (c : Dev nD) : W7 m ρ c (Proc.devRef .tc main_arg5) = m ((c : Thread nD τ).loc main_arg5) :=
  (W7_of_ne m ρ c main_arg5 (by decide)).trans ((b2_6 m ρ c).trans (b2_4 m ρ c))

/-! ## The end of the run -/

/-- The result array: the second layer's aggregate over whatever the second call left. -/
theorem out_8 (c : Dev nD) : W8 m ρ c (Proc.devRef .tc main_v64)
    = agg (W7 m ρ c (Proc.devRef .tc main_v48)) (W7 m ρ c (Proc.devRef .tc main_v3)) (W7 m ρ c (Proc.devRef .tc main_v6)) (W7 m ρ c (Proc.devRef .tc main_v29)) (W7 m ρ c (Proc.devRef .tc main_arg5)) := by
  show StableHlo.after hostOps2 (W7 m ρ c) (Proc.devRef .tc main_v64) = _
  simp only [hostOps2]
  after_results_simp <;> rfl

end AnyFamily

/-! ## Over the extended reals: the two dense products, and the network -/

variable (m : (ℓ : Loc nD τ sig) → Buf (Elt Ideal) ℓ) (ρ : Dev nD → PrngReg)

/-- The first call leaves x · W₁. -/
theorem first_product (c : Dev nD) : W4 m ρ c (Proc.devRef .tc main_v30) = prod (m ((c : Thread nD τ).loc main_arg0)) (m ((c : Thread nD τ).loc main_arg2)) := by
  rw [first_out, DenseFirst.result (V3 m ρ) c]
  show prod (W3 m ρ c (Proc.devRef .tc main_arg0)) (W3 m ρ c (Proc.devRef .tc main_arg2)) = _
  rw [x_entry, w1_entry]

/-- The second call leaves a · W₂ for the hidden activations a it was entered with. -/
theorem second_product (c : Dev nD) : W7 m ρ c (Proc.devRef .tc main_v48)
    = prod (relu (agg (prod (m ((c : Thread nD τ).loc main_arg0)) (m ((c : Thread nD τ).loc main_arg2))) (src (m ((c : Thread nD τ).loc main_arg1))) (dst (m ((c : Thread nD τ).loc main_arg1))) (nrm (m ((c : Thread nD τ).loc main_arg1))) (m ((c : Thread nD τ).loc main_arg3)))) (m ((c : Thread nD τ).loc main_arg4)) := by
  rw [second_out, DenseSecond.result (V6 m ρ) c]
  show prod (W6 m ρ c (Proc.devRef .tc main_v47)) (W6 m ρ c (Proc.devRef .tc main_arg4)) = _
  rw [hidden_6, w2_6, first_product, src_4, dst_4, nrm_4, b1_4, w2_4]

/-- The result array at the end of the run is the network over X · Y of the arguments as launched. -/
theorem result (c : Dev nD) : W8 m ρ c (Proc.devRef .tc main_v64)
    = net prod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [out_8, second_product, src_7, dst_7, nrm_7, b2_7]
  rfl

end Cert.KernelIdeal.Folded

end
-- ==== Proof.RefValue.lean ====
/-
  The reference computes the network over the dense product.

  Its run ends with the result at ONE composed term of the arguments.  That term is the network of Layer.lean with the
  host's contraction as the dense product: the same operations in the same order, so the two are one term once the
  layer's definitions are opened (at any float family: nothing is computed).  And over the extended reals the host's
  contraction of a [100000,128] array with a [128,128] array along the shared axis, read at entry (n, j), is
  Σ_{k < 128} X(n, k) · Y(k, j): the contraction index, a one-axis index of extent 128, re-indexed by k.
-/
import proofs.«104801_j84456236908760_1_alg».proof.Proof.RefRun
import proofs.«104801_j84456236908760_1_alg».proof.Proof.Layer
import proofs.«104801_j84456236908760_1_alg».proof.Proof.Product
import Idealize.ShloMosaic.Lib.ValueIdx
import Idealize.ShloMosaic.PureOps.Ideal.Laws

noncomputable section

namespace Cert.ReferenceIdeal.Dense

open Cert.ReferenceIdeal Cert.ReferenceIdeal.Gen Idealize.ShloMosaic Idealize.ShloMosaic.TcCoe Idealize.SL.Sem

/-- On the left operand the contraction's index keeps the output's row … -/
theorem lhs_row (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- … and runs along the contracted axis. -/
theorem lhs_contr (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- On the right operand it runs along the contracted axis … -/
theorem rhs_contr (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
/-- … and keeps the output's column. -/
theorem rhs_col (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's contraction is the dense product X · Y. -/
theorem contraction_eq (X : FVec Ideal S100000x128 .f32) (Y : FVec Ideal S128x128 .f32) :
    Host.dotGeneral (F := Ideal) dot_S100000x128_S128x128_S100000x128_1_0_0_1_n_n none X Y = Cert.KernelIdeal.Product.prod X Y := by
  funext i
  unfold Cert.KernelIdeal.Product.prod
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = Cert.KernelIdeal.Product.rowAt i k := funext fun a => Fin.ext (by
    match a with
    | ⟨0, _⟩ => exact lhs_row _ _
    | ⟨1, _⟩ => exact (lhs_contr _ _).trans hk)
  have er : dot_S100000x128_S128x128_S100000x128_1_0_0_1_n_n.rhsIdx i ((ValueIdx.contrEquiv1 dot_S100000x128_S128x128_S100000x128_1_0_0_1_n_n 128 rfl rfl).symm k) = Cert.KernelIdeal.Product.colAt i k := funext fun a => Fin.ext (by
    match a with
    | ⟨0, _⟩ => exact (rhs_contr _ _).trans hk
    | ⟨1, _⟩ => exact rhs_col _ _)
  rw [el, er]

section
variable {F : FTy → Type} [FloatOps F]

set_option maxRecDepth 8192 in
/-- The run's result term is the network over the host's contraction, at any float family. -/
theorem result_net (m : (ℓ : Loc nD τ sig) → Buf (Elt F) ℓ) (c : Dev nD) :
    Cert.ReferenceIdeal.Value.res_main_v64 m c
      = Cert.KernelIdeal.Layer.net (F := F) (fun X Y => Host.dotGeneral (F := F) dot_S100000x128_S128x128_S100000x128_1_0_0_1_n_n none X Y)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v64 Cert.KernelIdeal.Layer.net Cert.KernelIdeal.Layer.agg Cert.KernelIdeal.Layer.relu
    Cert.KernelIdeal.Layer.nrm Cert.KernelIdeal.Layer.dinv Cert.KernelIdeal.Layer.deg Cert.KernelIdeal.Layer.wrap
    Cert.KernelIdeal.Layer.src Cert.KernelIdeal.Layer.dst
  rfl
end

/-- Over the extended reals the run's result term is the network over X · Y. -/
theorem result_eq (m : (ℓ : Loc nD τ sig) → Buf (Elt Ideal) ℓ) (c : Dev nD) :
    Cert.ReferenceIdeal.Value.res_main_v64 m c
      = Cert.KernelIdeal.Layer.net (F := Ideal) Cert.KernelIdeal.Product.prod
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (result_net m c).trans
    (congrArg (fun P => Cert.KernelIdeal.Layer.net (F := Ideal) P
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)))
      (funext fun X => funext fun Y => contraction_eq X Y))

end Cert.ReferenceIdeal.Dense

end
-- ==== Proof.lean ====
/-
  A two-layer graph convolution on 100000 nodes with 128 features: the kernel program against the reference.

  Both programs build the same graph quantities from the edge list — sources s, targets t (the self-loops appended),
  degrees, and the edge weights ν(e) = deg(s(e))^(-1/2) · deg(t(e))^(-1/2) — and apply twice the layer

      H  ↦  ( n, j  ↦  Σ_{e : t(e) = n} (H · W)(s(e), j) · ν(e) + b(j) ),

  with a relu in between.  They differ only in the dense product H · W: the reference contracts the two arrays in one
  operation; the kernel program runs a pallas_call over 20 blocks of 5000 rows, each block narrowed to bf16 and
  multiplied into a zero accumulator.  Over the extended reals narrowing changes nothing and adding to 0 changes
  nothing, so a block's entry (r, j) is Σ_k X(5000·t + r, k) · Y(k, j); the 20 blocks tile the rows, so the call leaves
  exactly  (X · Y)(n, j) = Σ_{k < 128} X(n, k) · Y(k, j),  which is also what the reference's contraction is at (n, j).
  No law of arithmetic beyond 0 + a = a is used: both sides form the same sums of the same products, so the inputs'
  finiteness is never needed.  Everything else — gathers, scatters, broadcasts, the relu — is the same operation
  applied to equal operands and is carried whole (Layer.lean), never opened.

  The modules: Layer (the network over a dense product P), Product (X · Y), BlockProduct (a block's entry),
  DenseFirst / DenseSecond (each pallas_call leaves X · Y), KernelValue (the kernel program's result read back through
  its run), RefValue (the reference's result), RunNamed and RefRun (the two runs with the result named).
-/
import proofs.«104801_j84456236908760_1_alg».proof.Defs
import proofs.«104801_j84456236908760_1_alg».proof.Proof.Gen.Kernel
import proofs.«104801_j84456236908760_1_alg».proof.Proof.Gen.Kernel.Frame
import proofs.«104801_j84456236908760_1_alg».proof.Proof.Gen.KernelIdeal
import proofs.«104801_j84456236908760_1_alg».proof.Proof.Gen.KernelIdeal.Frame
import proofs.«104801_j84456236908760_1_alg».proof.Proof.Gen.ReferenceIdeal
import proofs.«104801_j84456236908760_1_alg».proof.Proof.Gen.Pre_finite_inputs
import proofs.«104801_j84456236908760_1_alg».proof.Proof.RefRun
import proofs.«104801_j84456236908760_1_alg».proof.Proof.RunNamed
import proofs.«104801_j84456236908760_1_alg».proof.Proof.KernelValue
import proofs.«104801_j84456236908760_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and keeps its arguments, read at the word level. -/
theorem frame_kernel : Cert.frame_Kernel := fun m ρ _ => Cert.Kernel.Gen.frame m ρ

/-- The same, read over the extended reals. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network over X · Y of those arguments:
    the kernel program by its run read back (KernelValue), the reference by its composed term (RefValue). -/
theorem algebraic : Cert.algebraic_KernelIdeal_ReferenceIdeal := by
  intro m ρ m' ρ' _ hagree
  refine ⟨fun c => Cert.KernelIdeal.Layer.net (F := Ideal) Cert.KernelIdeal.Product.prod
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Folded.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5⟩ := hagree c
    rw [Cert.ReferenceIdeal.Dense.result_eq m' c, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
